-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64 : Shape := ⟨3, ![8, 2048, 64]⟩
abbrev S64x64 : Shape := ⟨2, ![64, 64]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S8x2048x64 .f32) (main_arg1 : FVec F S64x64 .f32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  main_v8
-- ==== Kernel.lean ====
abbrev S8x2048x64 : Shape := ⟨3, ![8, 2048, 64]⟩
abbrev S64x64 : Shape := ⟨2, ![64, 64]⟩
abbrev S16384x64 : Shape := ⟨2, ![16384, 64]⟩
abbrev S16384x4096 : Shape := ⟨2, ![16384, 4096]⟩
abbrev S256x64 : Shape := ⟨2, ![256, 64]⟩
abbrev S256x4096 : Shape := ⟨2, ![256, 4096]⟩
abbrev S256x64x1 : Shape := ⟨3, ![256, 64, 1]⟩
abbrev S1x64x64 : Shape := ⟨3, ![1, 64, 64]⟩
abbrev S256x64x64 : Shape := ⟨3, ![256, 64, 64]⟩
abbrev S8x2048x4096 : Shape := ⟨3, ![8, 2048, 4096]⟩

abbrev nBuf : Space → Nat
  | .hbm => 5
  | .vmem => 5
  | .smem => 0
  | _ => 0

abbrev bufTy : (tb : Table) → Fin (tcTables nBuf tb) → BufTy
  | .hbm, ⟨0, _⟩ => ⟨S8x2048x64, .f32⟩
  | .hbm, ⟨1, _⟩ => ⟨S64x64, .f32⟩
  | .hbm, ⟨2, _⟩ => ⟨S16384x64, .f32⟩
  | .hbm, ⟨3, _⟩ => ⟨S16384x4096, .f32⟩
  | .hbm, ⟨4, _⟩ => ⟨S8x2048x4096, .f32⟩
  | .local _ .vmem, ⟨0, _⟩ => ⟨S256x64, .f32⟩
  | .local _ .vmem, ⟨1, _⟩ => ⟨S256x64, .f32⟩
  | .local _ .vmem, ⟨2, _⟩ => ⟨S64x64, .f32⟩
  | .local _ .vmem, ⟨3, _⟩ => ⟨S256x4096, .f32⟩
  | .local _ .vmem, ⟨4, _⟩ => ⟨S256x4096, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x2048x64_S16384x64 : S8x2048x64.ShapeCasts S16384x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x64_S64x64_0_0 : ∀ a, (![0, 0] : Fin 2 → Nat) a + S64x64.size a ≤ S64x64.size a
  h_S64x64 : 0 < S64x64.numel
  shapeCasts_S256x64_S256x64x1 : S256x64.ShapeCasts S256x64x1
  shapeCasts_S64x64_S1x64x64 : S64x64.ShapeCasts S1x64x64
  broadcasts_S256x64x1_S256x64x64 : S256x64x1.Broadcasts S256x64x64
  broadcasts_S1x64x64_S256x64x64 : S1x64x64.Broadcasts S256x64x64
  shapeCasts_S256x64x64_S256x4096 : S256x64x64.ShapeCasts S256x4096
  inb_S256x4096_S256x4096_0_0 : ∀ a, (![0, 0] : Fin 2 → Nat) a + S256x4096.size a ≤ S256x4096.size a
  h_S256x4096 : 0 < S256x4096.numel
  shapeCasts_S16384x4096_S8x2048x4096 : S16384x4096.ShapeCasts S8x2048x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S16384x64.size a
  hwx0_0 : ∀ i : grid0.Coords, EltTy.bits .f32 = 32 ∨ (Rect.block (s := S16384x64) S256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S16384x4096.size a
  hwx0_2 : ∀ i : grid0.Coords, EltTy.bits .f32 = 32 ∨ (Rect.block (s := S16384x4096) S256x4096.size (cc0_transform_2 i) (hinb0_2 i)).WholeWords (EltTy.packing .f32)

variable [Facts₀]

abbrev win0_0 : Pipeline.Window sig grid0 :=
  Pipeline.Window.ofSpec (Memref.whole main_v0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x64 : Shape := ⟨3, ![8, 2048, 64]⟩
abbrev S64x64 : Shape := ⟨2, ![64, 64]⟩
abbrev S8x2048x64x1 : Shape := ⟨4, ![8, 2048, 64, 1]⟩
abbrev S1x1x64x64 : Shape := ⟨4, ![1, 1, 64, 64]⟩
abbrev S8x2048x64x64 : Shape := ⟨4, ![8, 2048, 64, 64]⟩
abbrev S8x2048x4096 : Shape := ⟨3, ![8, 2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S64x64, .f32⟩
  | .hbm, ⟨2, _⟩ => ⟨S8x2048x64x1, .f32⟩
  | .hbm, ⟨3, _⟩ => ⟨S1x1x64x64, .f32⟩
  | .hbm, ⟨4, _⟩ => ⟨S8x2048x64x64, .f32⟩
  | .hbm, ⟨5, _⟩ => ⟨S8x2048x64x64, .f32⟩
  | .hbm, ⟨6, _⟩ => ⟨S8x2048x64x64, .f32⟩
  | .hbm, ⟨7, _⟩ => ⟨S8x2048x4096, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  bcast_S8x2048x64_S8x2048x64x1_0_1_2 : S8x2048x64.BroadcastsInDim S8x2048x64x1 (![0, 1, 2] : Fin 3 → Fin S8x2048x64x1.rank)
  bcast_S64x64_S1x1x64x64_2_3 : S64x64.BroadcastsInDim S1x1x64x64 (![2, 3] : Fin 2 → Fin S1x1x64x64.rank)
  bcast_S8x2048x64x1_S8x2048x64x64_0_1_2_3 : S8x2048x64x1.BroadcastsInDim S8x2048x64x64 (![0, 1, 2, 3] : Fin 4 → Fin S8x2048x64x64.rank)
  bcast_S1x1x64x64_S8x2048x64x64_0_1_2_3 : S1x1x64x64.BroadcastsInDim S8x2048x64x64 (![0, 1, 2, 3] : Fin 4 → Fin S8x2048x64x64.rank)
  shapeCasts_S8x2048x64x64_S8x2048x4096 : S8x2048x64x64.ShapeCasts S8x2048x4096

variable [Facts₀]

class Facts : Prop extends Facts₀ where

variable [Facts]
-- ==== Proof.Spec.lean ====
/-
  The function both programs compute.  The input `x` has shape [8, 2048, 64] and the table `k` has shape [64, 64];
  the result has shape [8, 2048, 4096] and its last axis is the pair (i, j) flattened i-major:

      result[b, s, 64·i + j] = max (x[b, s, i]) (k[i, j]).

  A column `c < 4096` of the result therefore splits as `c = 64·(c / 64) + c % 64`: the quotient names the feature
  of `x` and the row of `k`, the remainder the column of `k`.  The same function on the rows flattened to one
  axis of 16384 = 8·2048 (`rows`) is what a kernel working on [16384, 64] produces before the final reshape.
-/
import Idealize.ShloMosaic.PureOps.Ideal
import Idealize.ShloMosaic.Lib.ValueIdx

noncomputable section

namespace Cert.FuzzyMax

open Idealize.ShloMosaic Idealize.ShloMosaic.ValueIdx

variable {F : FTy → Type} [FloatOps F]

/-- The quotient of a flattened column by 64: which feature of `x`, and which row of `k`, the column compares. -/
abbrev hi (c : Fin 4096) : Fin 64 := ⟨c.val / 64, by have := c.isLt; omega⟩

/-- The remainder of a flattened column modulo 64: which column of `k` it compares against. -/
abbrev lo (c : Fin 4096) : Fin 64 := ⟨c.val % 64, by omega⟩

/-- The result on flattened rows: `rows x k [r, 64·i + j] = max (x[r, i]) (k[i, j])`. -/
def rows (x : (⟨2, ![16384, 64]⟩ : Shape).Idx → Elt F .f32) (k : (⟨2, ![64, 64]⟩ : Shape).Idx → Elt F .f32) :
    (⟨2, ![16384, 4096]⟩ : Shape).Idx → Elt F .f32 :=
  fun i => FloatOps.maximumf (x (ix2 (i 0) (hi (i 1)))) (k (ix2 (hi (i 1)) (lo (i 1))))

/-- The result: `result x k [b, s, 64·i + j] = max (x[b, s, i]) (k[i, j])`. -/
def result (x : (⟨3, ![8, 2048, 64]⟩ : Shape).Idx → Elt F .f32) (k : (⟨2, ![64, 64]⟩ : Shape).Idx → Elt F .f32) :
    (⟨3, ![8, 2048, 4096]⟩ : Shape).Idx → Elt F .f32 :=
  fun i => FloatOps.maximumf (x (ix3 (i 0) (i 1) (hi (i 2)))) (k (ix2 (hi (i 2)) (lo (i 2))))

end Cert.FuzzyMax

end
-- ==== Proof.RefValue.lean ====
/-
  The reference's result is `FuzzyMax.result` of its two arguments.

  The reference broadcasts `x` to [8, 2048, 64, 64] along a new last axis and `k` along two new leading axes,
  takes the elementwise maximum, and reshapes [8, 2048, 64, 64] to [8, 2048, 4096].  Read at an index
  [b, s, c] of the result, the reshape lands on the index of equal row-major position, which is
  [b, s, c / 64, c % 64]; the two broadcasts then drop the axes they added, leaving
  `max (x[b, s, c / 64]) (k[c / 64, c % 64])`.
-/
import proofs.«170993_j78692390798053_1_alg».proof.Defs
import proofs.«170993_j78692390798053_1_alg».proof.Proof.Gen.ReferenceIdeal.Run
import proofs.«170993_j78692390798053_1_alg».proof.Proof.Gen.ReferenceIdeal.Read
import proofs.«170993_j78692390798053_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.FuzzyMax

variable {F : FTy → Type} [FloatOps F]

/-- Through the reshape and the two broadcasts of `x`, the result's index [b, s, c] reads `x` at [b, s, c / 64]. -/
theorem x_index (i : S8x2048x4096.Idx) :
    idx_main_v0 (idx_main_v2 (idx_main_v5 i)) = ix3 (i 0) (i 1) (hi (i 2)) := by
  have h0 : (i 0).val < 8 := (i 0).isLt
  have h1 : (i 1).val < 2048 := (i 1).isLt
  have h2 : (i 2).val < 4096 := (i 2).isLt
  funext a; apply Fin.ext
  match a with
  | ⟨0, _⟩ => show (((i 0).val * 2048 + (i 1).val) * 4096 + (i 2).val) / 8388608 = (i 0).val; omega
  | ⟨1, _⟩ => show (((i 0).val * 2048 + (i 1).val) * 4096 + (i 2).val) / 4096 % 2048 = (i 1).val; omega
  | ⟨2, _⟩ => show (((i 0).val * 2048 + (i 1).val) * 4096 + (i 2).val) / 64 % 64 = (i 2).val / 64; omega

/-- Through the reshape and the two broadcasts of `k`, the result's index [b, s, c] reads `k` at [c / 64, c % 64]. -/
theorem k_index (i : S8x2048x4096.Idx) :
    idx_main_v1 (idx_main_v3 (idx_main_v5 i)) = ix2 (hi (i 2)) (lo (i 2)) := by
  have h0 : (i 0).val < 8 := (i 0).isLt
  have h1 : (i 1).val < 2048 := (i 1).isLt
  have h2 : (i 2).val < 4096 := (i 2).isLt
  funext a; apply Fin.ext
  match a with
  | ⟨0, _⟩ => show (((i 0).val * 2048 + (i 1).val) * 4096 + (i 2).val) / 64 % 64 = (i 2).val / 64; omega
  | ⟨1, _⟩ => show (((i 0).val * 2048 + (i 1).val) * 4096 + (i 2).val) % 64 = (i 2).val % 64; omega

/-- The reference's last stage is `FuzzyMax.result` of the arguments. -/
theorem val_eq_result (x : (⟨S8x2048x64, .f32⟩ : BufTy).Contents (Elt F)) (k : (⟨S64x64, .f32⟩ : BufTy).Contents (Elt F)) :
    val_main_v5 (F := F) x k = result x k := by
  funext i
  rw [val_main_v5_apply, val_main_v4_apply, val_main_v2_apply, val_main_v0_apply, val_main_v3_apply, val_main_v1_apply,
    x_index, k_index]
  rfl

end Cert.ReferenceIdeal.RefValue

end
-- ==== Proof.Payload.lean ====
/-
  The kernel body's one stored value, read at an index.

  The body loads a [256, 64] block `xb` of the flattened rows and the whole [64, 64] table `kb`, views `xb` as
  [256, 64, 1] and `kb` as [1, 64, 64], broadcasts both to [256, 64, 64], takes the maximum and flattens the last
  two axes.  At [r, c] the flattening lands on [r, c / 64, c % 64] (equal row-major position), the broadcast of
  `xb` forgets the last coordinate and the broadcast of `kb` the first:

      stored[r, c] = max (xb[r, c / 64]) (kb[c / 64, c % 64]).
-/
import proofs.«170993_j78692390798053_1_alg».proof.Proof.Gen.KernelIdeal.Skeleton
import proofs.«170993_j78692390798053_1_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.ValueIdx Cert.FuzzyMax

variable {F : FTy → Type} [FloatOps F]

/-- The stored block at row `r`, column `c`. -/
theorem pay_apply (xb : Vec F S256x64 .f32) (kb : Vec F S64x64 .f32) (r : Fin 256) (c : Fin 4096) :
    k0_pay1 xb kb (ix2 r c) = FloatOps.maximumf (xb (ix2 r (hi c))) (kb (ix2 (hi c) (lo c))) := by
  have hc : c.val < 4096 := c.isLt
  unfold k0_pay1
  -- the flattening [256, 64, 64] → [256, 4096]
  refine (shapeCast_apply _ shapeCasts_S256x64x64_S256x4096 (ix2 r c) (ix3 r (hi c) (lo c)) ?_).trans ?_
  · rw [Shape.rowMajor_val_three, Shape.rowMajor_val_two]
    show (r.val * 64 + c.val / 64) * 64 + c.val % 64 = r.val * 4096 + c.val
    omega
  show FloatOps.maximumf (broadcastTo S256x64x64 _ broadcasts_S256x64x1_S256x64x64 (ix3 r (hi c) (lo c)))
      (broadcastTo S256x64x64 _ broadcasts_S1x64x64_S256x64x64 (ix3 r (hi c) (lo c))) = _
  congr 1
  · -- the block of rows, along a new last axis
    refine (broadcastTo_apply _ broadcasts_S256x64x1_S256x64x64 (ix3 r (hi c) (lo c)) (ix3 r (hi c) (0 : Fin 1)) ?_).trans ?_
    · intro a
      match a with
      | ⟨0, _⟩ => show r.val = if (256 : Nat) = 1 then 0 else r.val; rw [if_neg (by decide)]
      | ⟨1, _⟩ => show c.val / 64 = if (64 : Nat) = 1 then 0 else c.val / 64; rw [if_neg (by decide)]
      | ⟨2, _⟩ => show 0 = if (1 : Nat) = 1 then 0 else c.val % 64; rw [if_pos rfl]
    refine (shapeCast_apply _ shapeCasts_S256x64_S256x64x1 (ix3 r (hi c) (0 : Fin 1)) (ix2 r (hi c)) ?_).trans ?_
    · rw [Shape.rowMajor_val_three, Shape.rowMajor_val_two]
      show r.val * 64 + c.val / 64 = (r.val * 64 + c.val / 64) * 1 + 0
      omega
    rw [shapeCast_self]
  · -- the table, along a new first axis
    refine (broadcastTo_apply _ broadcasts_S1x64x64_S256x64x64 (ix3 r (hi c) (lo c)) (ix3 (0 : Fin 1) (hi c) (lo c)) ?_).trans ?_
    · intro a
      match a with
      | ⟨0, _⟩ => show 0 = if (1 : Nat) = 1 then 0 else r.val; rw [if_pos rfl]
      | ⟨1, _⟩ => show c.val / 64 = if (64 : Nat) = 1 then 0 else c.val / 64; rw [if_neg (by decide)]
      | ⟨2, _⟩ => show c.val % 64 = if (64 : Nat) = 1 then 0 else c.val % 64; rw [if_neg (by decide)]
    refine shapeCast_apply _ shapeCasts_S64x64_S1x64x64 (ix3 (0 : Fin 1) (hi c) (lo c)) (ix2 (hi c) (lo c)) ?_
    rw [Shape.rowMajor_val_three, Shape.rowMajor_val_two]
    show c.val / 64 * 64 + c.val % 64 = (0 * 64 + c.val / 64) * 64 + c.val % 64
    omega

end Cert.KernelIdeal.Hand

end
-- ==== Proof.KernelValue.lean ====
/-
  What the idealized kernel leaves in its result, as a function of its two arguments.

  The program reshapes `x` from [8, 2048, 64] to rows [16384, 64], runs the kernel over a grid of 64 points, and reshapes
  the kernel's [16384, 4096] array to [8, 2048, 4096].  Point `t` loads rows 256·t … 256·t + 255 and the whole table,
  and writes rows 256·t … 256·t + 255 of the array; the 64 row blocks tile the array, so the array ends at
  `FuzzyMax.rows` of the flattened `x` and the table.  Reading the two reshapes at an index (equal row-major
  positions: row 2048·b + s of the flat array is [b, s] of the others) turns that into `FuzzyMax.result`.
-/
import proofs.«170993_j78692390798053_1_alg».proof.Proof.Gen.KernelIdeal.Frame
import proofs.«170993_j78692390798053_1_alg».proof.Proof.Payload
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen
open Idealize.ShloMosaic.ValueIdx Cert.FuzzyMax

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The block indices at point `t`: the row windows are at block row `t`, the table at its only block. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The stored block against the whole arrays: if the loaded row block is the rows of `xa` at the result's row, and
    the loaded table is `ka`, the stored value at [p, q] is `rows xa ka` at that row and column `q`. -/
theorem pay_rows (xa : (⟨2, ![16384, 64]⟩ : Shape).Idx → Elt F .f32) (ka : (⟨2, ![64, 64]⟩ : Shape).Idx → Elt F .f32)
    (xb : Vec F S256x64 .f32) (kb : Vec F S64x64 .f32) (p : Fin 256) (q : Fin 4096) (i : (⟨2, ![16384, 4096]⟩ : Shape).Idx)
    (hq : (i 1).val = q.val)
    (hx : xb (ix2 p (hi q)) = xa (ix2 (i 0) (hi q)))
    (hk : kb (ix2 (hi q) (lo q)) = ka (ix2 (hi q) (lo q))) :
    k0_pay1 xb kb (ix2 p q) = rows xa ka i := by
  have e : i 1 = q := Fin.ext hq
  rw [pay_apply, hx, hk]
  unfold rows
  rw [e]

/-- What point `t` writes back is block `t` of `rows` of the arrays the region finds. -/
theorem flushed_eq (c : Dev nD) (t : Fin cfg0.N) :
    (dats m 0 c).flushed 2 t = ((cfg0.win 2).blk t).view.read (Elt F) (rows (V m c main_v0) (V m c main_arg1)) := by
  show (cfg0.win 2).cut (grid0.coords t) ((dats m 0 c).after 2 t) = _
  rw [after0_2]
  unfold out0_2
  rw [View.canon_unit_zero hz]
  simp only [View.ld_unit_zero (S := S256x64) hz, View.ld_unit_zero (S := S64x64) hz]
  obtain ⟨e0, e1, e2, e3, e4, e5⟩ := block_index t
  funext j
  obtain ⟨p, q, rfl⟩ : ∃ (p : Fin 256) (q : Fin 4096), j = ix2 p q := ⟨j 0, j 1, eq_ix2 j⟩
  have hq : q.val < 4096 := q.isLt
  refine pay_rows (V m c main_v0) (V m c main_arg1) (iblk m c 0 t) (iblk m c 1 t) p q (((cfg0.win 2).blk t).view.emb (ix2 p q)) ?_ ?_ ?_
  · show win0_2.index t (1 : Fin 2) * 4096 + 1 * q.val = q.val
    omega
  · show V m c main_v0 (((cfg0.win 0).blk t).view.emb (ix2 p (hi q))) = V m c main_v0 _
    congr 1
    funext a; apply Fin.ext
    match a with
    | ⟨0, _⟩ => show win0_0.index t (0 : Fin 2) * 256 + 1 * p.val = win0_2.index t (0 : Fin 2) * 256 + 1 * p.val; omega
    | ⟨1, _⟩ => show win0_0.index t (1 : Fin 2) * 64 + 1 * (q.val / 64) = q.val / 64; omega
  · show V m c main_arg1 (((cfg0.win 1).blk t).view.emb (ix2 (hi q) (lo q))) = V m c main_arg1 _
    congr 1
    funext a; apply Fin.ext
    match a with
    | ⟨0, _⟩ => show win0_1.index t (0 : Fin 2) * 64 + 1 * (q.val / 64) = q.val / 64; omega
    | ⟨1, _⟩ => show win0_1.index t (1 : Fin 2) * 64 + 1 * (q.val % 64) = q.val % 64; omega

/-- An index of the array is in point `t`'s block iff each coordinate is in the block's range on its axis. -/
theorem mem_blk (t : Fin cfg0.N) (i : S16384x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v1).slice (win0_2.rect t)).set ↔ _
  rw [View.set_slice_whole, Rect.mem_set_unit]
  exact Iff.rfl

/-- Row `r` of the array is written by point `r / 256`: the 64 row blocks tile the array. -/
theorem cover (i : S16384x4096.Idx) :
    ∃ t : Fin cfg0.N, (cfg0.win 2).flush t = true ∧ i ∈ ((cfg0.win 2).blk t).view.set := by
  have h0 : (i 0).val < 16384 := (i 0).isLt
  have h1 : (i 1).val < 4096 := (i 1).isLt
  have hN : cfg0.N = 64 := N_0
  have hlt : (i 0).val / 256 < cfg0.N := by rw [hN]; omega
  obtain ⟨-, -, -, -, e4, e5⟩ := block_index ⟨(i 0).val / 256, hlt⟩
  have e4' : win0_2.index ⟨(i 0).val / 256, hlt⟩ (0 : Fin 2) = (i 0).val / 256 := e4
  refine ⟨⟨(i 0).val / 256, hlt⟩, flush0_2 _, ?_⟩
  rw [mem_blk]
  intro a
  match a with
  | ⟨0, _⟩ =>
    show win0_2.index ⟨(i 0).val / 256, hlt⟩ (0 : Fin 2) * 256 ≤ (i 0).val ∧ (i 0).val < win0_2.index ⟨(i 0).val / 256, hlt⟩ (0 : Fin 2) * 256 + 256
    omega
  | ⟨1, _⟩ =>
    show win0_2.index ⟨(i 0).val / 256, hlt⟩ (1 : Fin 2) * 4096 ≤ (i 1).val ∧ (i 1).val < win0_2.index ⟨(i 0).val / 256, hlt⟩ (1 : Fin 2) * 4096 + 4096
    omega

/-- The kernel's array after the run. -/
theorem final_rows (c : Dev nD) : (dats m 0 c).arrAt 2 cfg0.N = rows (V m c main_v0) (V m c main_arg1) :=
  (dats m 0 c).arrAt_eq_of_cover 2 _ (fun t _ => flushed_eq m c t) cover

/-- The rows the region finds are the host's reshape of `x`. -/
theorem V_rows (c : Dev nD) :
    (V m c main_v0 : S16384x64.Idx → Elt F .f32)
      = shapeCast S16384x64 (m ((c : Thread nD τ).loc main_arg0)) shapeCasts_S8x2048x64_S16384x64 := by
  show StableHlo.after hostOps0 (fun b => m (c, b)) (Proc.devRef .tc main_v0) = _
  after_results <;> rfl

/-- The program's result is the host's reshape of the kernel's array. -/
theorem tail_eq (c : Dev nD) :
    (Pipeline.afterTail₀ cfgs (dats m) 0 (V0 m) [hostOps1] c main_v2 : S8x2048x4096.Idx → Elt F .f32)
      = shapeCast S8x2048x4096 ((dats m 0 c).arrAt 2 cfg0.N) shapeCasts_S16384x4096_S8x2048x4096 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v1)
      = (dats m 0 c).arrAt 2 cfg0.N :=
    Pipeline.withArrays_arr spec0 launch0.win.arr_inj c _ _ 2
  rw [e]
  rfl

/-- Flattening the rows of `x`, taking `rows`, and unflattening the rows again is `result`: row 2048·b + s of the flat
    arrays is [b, s] of the others, and the columns are untouched. -/
theorem reshape_rows (x : S8x2048x64.Idx → Elt F .f32) (k : S64x64.Idx → Elt F .f32) :
    shapeCast S8x2048x4096 (rows (shapeCast S16384x64 x shapeCasts_S8x2048x64_S16384x64) k) shapeCasts_S16384x4096_S8x2048x4096
      = result x k := by
  funext i
  have h0 : (i 0).val < 8 := (i 0).isLt
  have h1 : (i 1).val < 2048 := (i 1).isLt
  have h2 : (i 2).val < 4096 := (i 2).isLt
  have hr : (i 0).val * 2048 + (i 1).val < 16384 := by omega
  refine (shapeCast_apply _ shapeCasts_S16384x4096_S8x2048x4096 i (ix2 (⟨(i 0).val * 2048 + (i 1).val, hr⟩ : Fin 16384) (i 2)) ?_).trans ?_
  · rw [Shape.rowMajor_val_two, Shape.rowMajor_val_three]
    show ((i 0).val * 2048 + (i 1).val) * 4096 + (i 2).val = ((i 0).val * 2048 + (i 1).val) * 4096 + (i 2).val
    rfl
  show FloatOps.maximumf (shapeCast S16384x64 x shapeCasts_S8x2048x64_S16384x64 (ix2 (⟨(i 0).val * 2048 + (i 1).val, hr⟩ : Fin 16384) (hi (i 2))))
      (k (ix2 (hi (i 2)) (lo (i 2))))
    = FloatOps.maximumf (x (ix3 (i 0) (i 1) (hi (i 2)))) (k (ix2 (hi (i 2)) (lo (i 2))))
  congr 1
  refine shapeCast_apply x shapeCasts_S8x2048x64_S16384x64 _ (ix3 (i 0) (i 1) (hi (i 2))) ?_
  rw [Shape.rowMajor_val_three, Shape.rowMajor_val_two]
  show ((i 0).val * 2048 + (i 1).val) * 64 + (i 2).val / 64 = ((i 0).val * 2048 + (i 1).val) * 64 + (i 2).val / 64
  rfl

/-- The program's result after the run, as a function of the arguments as launched. -/
theorem value (c : Dev nD) :
    (Pipeline.afterTail₀ cfgs (dats m) 0 (V0 m) [hostOps1] c main_v2 : S8x2048x4096.Idx → Elt F .f32)
      = result (m ((c : Thread nD τ).loc main_arg0)) (m ((c : Thread nD τ).loc main_arg1)) := by
  rw [tail_eq, final_rows, V_rows, V_main_arg1]
  exact reshape_rows _ _

/-- The run, read: the result at `result` of the arguments, the arguments unchanged. -/
theorem run : θ_run defs (onTc (τ := τ) (main (F := F))) ⟨m, fun _ => 0, ρ⟩ fun r => ∀ c : Dev nD,
      r.2.mem ((c : Thread nD τ).loc main_v2) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v2 (Pipeline.mem_restRefs_of main_v2 (by decide) (by decide))).trans (value m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Hand

end
-- ==== Proof.lean ====
/-
  The kernel computes, for x : f32[8, 2048, 64] and a table k : f32[64, 64], the array

      out[b, s, 64·i + j] = max (x[b, s, i]) (k[i, j])        (i, j < 64)

  and so does the reference.  The kernel flattens the first two axes of x to 16384 rows, hands 256 rows and the whole
  table to each of 64 grid points, and at a point broadcasts the rows along a new last axis and the table along a new
  first axis, takes the maximum and flattens the two last axes; the reference does the same broadcasts on the
  unflattened array and one reshape.  Both sides apply `max` to the same two entries at every index, so the two
  results agree on the extended reals with no algebra at all: only indices are compared (a column c splits as
  64·(c / 64) + c % 64; a flat row r as 2048·(r / 2048) + r % 2048).  Finiteness of the inputs is not used.

  Proof/Spec.lean states the function; Proof/RefValue.lean reads the reference's stages at an index down to it;
  Proof/Payload.lean reads the kernel body's stored block at an index; Proof/KernelValue.lean carries the blocks
  to the whole array (the 64 row blocks tile it) and through the two host reshapes.  The ideal pass rewrote
  nothing, so `preserves` is `True`.
-/
import proofs.«170993_j78692390798053_1_alg».proof.Defs
import proofs.«170993_j78692390798053_1_alg».proof.Proof.Gen.Kernel
import proofs.«170993_j78692390798053_1_alg».proof.Proof.Gen.Kernel.Frame
import proofs.«170993_j78692390798053_1_alg».proof.Proof.Gen.KernelIdeal
import proofs.«170993_j78692390798053_1_alg».proof.Proof.Gen.KernelIdeal.Frame
import proofs.«170993_j78692390798053_1_alg».proof.Proof.Gen.ReferenceIdeal
import proofs.«170993_j78692390798053_1_alg».proof.Proof.Gen.ReferenceIdeal.Run
import proofs.«170993_j78692390798053_1_alg».proof.Proof.Gen.ReferenceIdeal.Read
import proofs.«170993_j78692390798053_1_alg».proof.Proof.Gen.Pre_finite_inputs
import proofs.«170993_j78692390798053_1_alg».proof.Proof.RefValue
import proofs.«170993_j78692390798053_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is six host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten for the ideal reading. -/
theorem preserves : Cert.preserves_Kernel_KernelIdeal := trivial

/-- Both programs end with `max (x[b, s, c / 64]) (k[c / 64, c % 64])` at every [b, s, c]. -/
theorem algebraic : Cert.algebraic_KernelIdeal_ReferenceIdeal := by
  intro m ρ m' ρ' _ hagree
  refine ⟨fun c => Cert.FuzzyMax.result (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.val_eq_result, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
